-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x2048 : Shape := ⟨3, ![64, 512, 2048]⟩
abbrev S512x512x1 : Shape := ⟨3, ![512, 512, 1]⟩
abbrev S512 : Shape := ⟨1, ![512]⟩
abbrev S_ : Shape := ⟨0, ![]⟩

class Facts : Prop where
  bcast_S_S64x512x2048 : S_.BroadcastsInDim S64x512x2048 (![] : Fin 0 → Fin S64x512x2048.rank)
  reducesTo_S64x512x2048_S_d0_1_2 : S64x512x2048.ReducesTo [0, 1, 2] S_
  h_S_ : 0 < S_.numel
  bcast_S_S512x512x1 : S_.BroadcastsInDim S512x512x1 (![] : Fin 0 → Fin S512x512x1.rank)
  reducesTo_S512x512x1_S_d0_1_2 : S512x512x1.ReducesTo [0, 1, 2] S_
  bcast_S_S512 : S_.BroadcastsInDim S512 (![] : Fin 0 → Fin S512.rank)
  reducesTo_S512_S_d0 : S512.ReducesTo [0] S_

variable [Facts]

def fn {F : FTy → Type} [FloatOps F] (main_arg0 : FVec F S64x512x2048 .f32) (main_arg1 : FVec F S512x512x1 .f32) (main_arg2 : FVec F S512 .f32) : IVec S_ 1 :=
  let main_v0 : FVec F S64x512x2048 .f32 := Host.absf main_arg0
  let main_cst : FVec F S_ .f32 := constant S_ .f32 0x7F800000#32
  let main_v1 : FVec F S64x512x2048 .f32 := broadcastInDim S64x512x2048 ![] bcast_S_S64x512x2048 main_cst
  let main_v2 : IVec S64x512x2048 1 := cmpf .olt main_v0 main_v1
  let main_c : IVec S_ 1 := constantI S_ 1 1#1
  let main_v3 : IVec S_ 1 := (fun x v => Host.reduce IntOp.andi x v reducesTo_S64x512x2048_S_d0_1_2 h_S_) main_v2 main_c
  let main_v4 : FVec F S512x512x1 .f32 := Host.absf main_arg1
  let main_cst_0 : FVec F S_ .f32 := constant S_ .f32 0x7F800000#32
  let main_v5 : FVec F S512x512x1 .f32 := broadcastInDim S512x512x1 ![] bcast_S_S512x512x1 main_cst_0
  let main_v6 : IVec S512x512x1 1 := cmpf .olt main_v4 main_v5
  let main_c_1 : IVec S_ 1 := constantI S_ 1 1#1
  let main_v7 : IVec S_ 1 := (fun x v => Host.reduce IntOp.andi x v reducesTo_S512x512x1_S_d0_1_2 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S64x512x2048 : Shape := ⟨3, ![64, 512, 2048]⟩
abbrev S512x512x1 : Shape := ⟨3, ![512, 512, 1]⟩
abbrev S512 : Shape := ⟨1, ![512]⟩
abbrev S512x512 : Shape := ⟨2, ![512, 512]⟩
abbrev S512x1 : Shape := ⟨2, ![512, 1]⟩
abbrev S1x512x2048 : Shape := ⟨3, ![1, 512, 2048]⟩
abbrev S512x2048 : Shape := ⟨2, ![512, 2048]⟩

abbrev nBuf : Space → Nat
  | .hbm => 6
  | .vmem => 6
  | .smem => 0
  | _ => 0

abbrev bufTy : (tb : Table) → Fin (tcTables nBuf tb) → BufTy
  | .hbm, ⟨0, _⟩ => ⟨S64x512x2048, .f32⟩
  | .hbm, ⟨1, _⟩ => ⟨S512x512x1, .f32⟩
  | .hbm, ⟨2, _⟩ => ⟨S512, .f32⟩
  | .hbm, ⟨3, _⟩ => ⟨S512x512, .f32⟩
  | .hbm, ⟨4, _⟩ => ⟨S512x1, .f32⟩
  | .hbm, ⟨5, _⟩ => ⟨S64x512x2048, .f32⟩
  | .local _ .vmem, ⟨0, _⟩ => ⟨S1x512x2048, .f32⟩
  | .local _ .vmem, ⟨1, _⟩ => ⟨S1x512x2048, .f32⟩
  | .local _ .vmem, ⟨2, _⟩ => ⟨S512x512, .f32⟩
  | .local _ .vmem, ⟨3, _⟩ => ⟨S512x1, .f32⟩
  | .local _ .vmem, ⟨4, _⟩ => ⟨S1x512x2048, .f32⟩
  | .local _ .vmem, ⟨5, _⟩ => ⟨S1x512x2048, .f32⟩
  | _, _ => ⟨S64x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S512x512x1_S512x512 : S512x512x1.ShapeCasts S512x512
  shapeCasts_S512_S512x1 : S512.ShapeCasts S512x1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x2048 : S512x1.Broadcasts S512x2048
  shapeCasts_S512x2048_S1x512x2048 : S512x2048.ShapeCasts S1x512x2048
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S64x512x2048.size a
  hwx0_0 : ∀ i : grid0.Coords, EltTy.bits .f32 = 32 ∨ (Rect.block (s := S64x512x2048) S1x512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S512x1.size a
  hwx0_2 : ∀ i : grid0.Coords, EltTy.bits .f32 = 32 ∨ (Rect.block (s := S512x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S64x512x2048.size a
  hwx0_3 : ∀ i : grid0.Coords, EltTy.bits .f32 = 32 ∨ (Rect.block (s := S64x512x2048) S1x512x2048.size (cc0_transform_3 i) (hinb0_3 i)).WholeWords (EltTy.packing .f32)

variable [Facts₀]

def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_arg0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x512x2048 : Shape := ⟨3, ![64, 512, 2048]⟩
abbrev S512x512x1 : Shape := ⟨3, ![512, 512, 1]⟩
abbrev S512 : Shape := ⟨1, ![512]⟩
abbrev S512x512 : Shape := ⟨2, ![512, 512]⟩
abbrev S512x1 : Shape := ⟨2, ![512, 1]⟩
abbrev S1x512x1664 : Shape := ⟨3, ![1, 512, 1664]⟩
abbrev S512x1664 : Shape := ⟨2, ![512, 1664]⟩

abbrev nBuf : Space → Nat
  | .hbm => 6
  | .vmem => 6
  | .smem => 0
  | _ => 0

abbrev bufTy : (tb : Table) → Fin (tcTables nBuf tb) → BufTy
  | .hbm, ⟨0, _⟩ => ⟨S64x512x2048, .f32⟩
  | .hbm, ⟨1, _⟩ => ⟨S512x512x1, .f32⟩
  | .hbm, ⟨2, _⟩ => ⟨S512, .f32⟩
  | .hbm, ⟨3, _⟩ => ⟨S512x512, .f32⟩
  | .hbm, ⟨4, _⟩ => ⟨S512x1, .f32⟩
  | .hbm, ⟨5, _⟩ => ⟨S64x512x2048, .f32⟩
  | .local _ .vmem, ⟨0, _⟩ => ⟨S1x512x1664, .f32⟩
  | .local _ .vmem, ⟨1, _⟩ => ⟨S1x512x1664, .f32⟩
  | .local _ .vmem, ⟨2, _⟩ => ⟨S512x512, .f32⟩
  | .local _ .vmem, ⟨3, _⟩ => ⟨S512x1, .f32⟩
  | .local _ .vmem, ⟨4, _⟩ => ⟨S1x512x1664, .f32⟩
  | .local _ .vmem, ⟨5, _⟩ => ⟨S1x512x1664, .f32⟩
  | _, _ => ⟨S64x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![64, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1664 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1664 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S512x512x1_S512x512 : S512x512x1.ShapeCasts S512x512
  shapeCasts_S512_S512x1 : S512.ShapeCasts S512x1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512x1664_S1x512x1664_0_0_0 : ∀ a, (![0, 0, 0] : Fin 3 → Nat) a + S1x512x1664.size a ≤ S1x512x1664.size a
  h_S1x512x1664 : 0 < S1x512x1664.numel
  shapeCasts_S1x512x1664_S512x1664 : S1x512x1664.ShapeCasts S512x1664
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x1664 : S512x1.Broadcasts S512x1664
  shapeCasts_S512x1664_S1x512x1664 : S512x1664.ShapeCasts S1x512x1664
  dot_S512x512_S512x1664_S512x1664_1_0_0_1_n_n_wf : DotDims.WF S512x512 S512x1664 S512x1664 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1x512x1664.size a < S64x512x2048.size a
  hwx0_0 : ∀ i : grid0.Coords, EltTy.bits .f32 = 32 ∨ (Rect.unit (s := S64x512x2048) (fun a => cc0_transform_0 i a * S1x512x1664.size a) (fun a => (Pipeline.Clip.of (cc0_transform_0 i a) (S1x512x1664.size a) (S64x512x2048.size a)).extent (S1x512x1664.size a)) fun a => Pipeline.Clip.inb (Pipeline.Clip.ok_of (hstart0_0 i a))).WholeWords (EltTy.packing .f32)
  hwxs0_0 : ∀ i : grid0.Coords, EltTy.bits .f32 = 32 ∨ (Rect.unit (s := S1x512x1664) (fun _ => 0) (fun a => (Pipeline.Clip.of (cc0_transform_0 i a) (S1x512x1664.size a) (S64x512x2048.size a)).extent (S1x512x1664.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S512x1.size a
  hwx0_2 : ∀ i : grid0.Coords, EltTy.bits .f32 = 32 ∨ (Rect.block (s := S512x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1x512x1664.size a < S64x512x2048.size a
  hwx0_3 : ∀ i : grid0.Coords, EltTy.bits .f32 = 32 ∨ (Rect.unit (s := S64x512x2048) (fun a => cc0_transform_3 i a * S1x512x1664.size a) (fun a => (Pipeline.Clip.of (cc0_transform_3 i a) (S1x512x1664.size a) (S64x512x2048.size a)).extent (S1x512x1664.size a)) fun a => Pipeline.Clip.inb (Pipeline.Clip.ok_of (hstart0_3 i a))).WholeWords (EltTy.packing .f32)
  hwxs0_3 : ∀ i : grid0.Coords, EltTy.bits .f32 = 32 ∨ (Rect.unit (s := S1x512x1664) (fun _ => 0) (fun a => (Pipeline.Clip.of (cc0_transform_3 i a) (S1x512x1664.size a) (S64x512x2048.size a)).extent (S1x512x1664.size a)) fun a => (Nat.zero_add _).trans_le (Pipeline.Clip.extent_le (Pipeline.Clip.ok_of (hstart0_3 i a)))).WholeWords (EltTy.packing .f32)

variable [Facts₀]

def dot_S512x512_S512x1664_S512x1664_1_0_0_1_n_n : DotDims S512x512 S512x1664 S512x1664 where
  lhsContracting := [1]
  rhsContracting := [0]
  lhsNonContracting := [0]
  rhsNonContracting := [1]
  lhsBatch := []
  rhsBatch := []
  wf := dot_S512x512_S512x1664_S512x1664_1_0_0_1_n_n_wf

abbrev win0_0 : Pipeline.Window sig grid0 :=
  Pipeline.Window.ofSpecClip (Memref.whole main_arg0) S1x512x1664.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v0) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v2) S1x512x1664.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.LibMatmulTile.lean ====
/-
  A matrix product into a zero accumulator, read at one entry, at the exact-arithmetic instance: entry (o, l) of
  A·B is the sum over the one contracted axis of A(o, k)·B(k, l). And the tile a pointwise-convolution body leaves:
  the product of a weight matrix with an activation block carried as [1, K, N], plus a bias column copied along the
  rows, stored back as [1, M, N]: entry (0, o, l) is Σ_k W(o, k)·X(0, k, l) + b(o, 0). Column l of the result reads
  column l of X and no other column.
-/
import Idealize.ShloMosaic.PureOps.Ideal.Laws
import Idealize.ShloMosaic.Lib.ValueIdx
import Idealize.ShloMosaic.Lib.Pipeline.Value

noncomputable section

namespace Idealize.ShloMosaic.MatmulTile

open Idealize.ShloMosaic Idealize.ShloMosaic.ValueIdx

section Axes

variable {sl sr so : Shape} (d : DotDims sl sr so)

/-- With no batch axis and one free axis on the left, the left operand's index on that axis is the result's
    first coordinate. -/
theorem lhsIdx_val_of_free {a : Fin sl.rank} (hb : d.lhsBatch = []) (hn : d.lhsNonContracting = [a])
    (j : so.Idx) (k : d.contr.Idx) :
    (d.lhsIdx j k a).val = (j ⟨0, by rw [d.rank_out, hb, hn]; simp⟩).val := by
  have hmem : a ∈ d.lhsNonContracting := by rw [hn]; exact List.mem_singleton.mpr rfl
  have hnb : a ∉ d.lhsBatch := by rw [hb]; exact List.not_mem_nil
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis, one free axis on the left and one on the right, the right operand's index on its free axis
    is the result's second coordinate. -/
theorem rhsIdx_val_of_free {a : Fin sr.rank} (hlb : d.lhsBatch = []) (hrb : d.rhsBatch = [])
    {al : Fin sl.rank} (hln : d.lhsNonContracting = [al]) (hn : d.rhsNonContracting = [a])
    (j : so.Idx) (k : d.contr.Idx) :
    (d.rhsIdx j k a).val = (j ⟨1, by rw [d.rank_out, hlb, hln, hn]; simp⟩).val := by
  have hmem : a ∈ d.rhsNonContracting := by rw [hn]; exact List.mem_singleton.mpr rfl
  have hnb : a ∉ d.rhsBatch := by rw [hrb]; exact List.not_mem_nil
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Axes

section Product

variable {M K N : Nat} {φ₁ φ₂ : FTy}

/-- Entry (o, l) of the product of an [M, K] matrix with a [K, N] matrix into a zero accumulator:
    the sum over the contracted axis of the row's entry times the column's. -/
theorem matmul_zero_ix2 (D : DotDims ⟨2, ![M, K]⟩ ⟨2, ![K, N]⟩ ⟨2, ![M, N]⟩)
    (hlc : D.lhsContracting = [1]) (hrc : D.rhsContracting = [0])
    (hln : D.lhsNonContracting = [0]) (hrn : D.rhsNonContracting = [1])
    (hlb : D.lhsBatch = []) (hrb : D.rhsBatch = []) (prec : Option ContractPrecision)
    (A : FVec Ideal ⟨2, ![M, K]⟩ φ₁) (B : FVec Ideal ⟨2, ![K, N]⟩ φ₂) (o : Fin M) (l : Fin N) :
    matmul D prec A B (constant (F := Ideal) ⟨2, ![M, N]⟩ .f32 0x00000000#32) (ix2 o l)
      = ∑ k : Fin K, A (ix2 o k) * B (ix2 k l) := by
  have hr : D.contr.rank = 1 := by rw [D.rank_contr, hlc]; rfl
  have hs : D.contr.size ⟨0, by omega⟩ = K := by
    rw [D.size_contr 0 (by rw [hlc]; exact Nat.one_pos), List.getElem_of_eq hlc]; rfl
  refine (Ideal.matmul_constant_zero_apply D prec A B (ix2 o l)).trans ?_
  rw [← Equiv.sum_comp (contrEquiv1 D K hr hs).symm]
  refine Finset.sum_congr rfl fun k _ => ?_
  have hk := contrEquiv1_symm_val D K hr hs k
  have eA : D.lhsIdx (ix2 o l) ((contrEquiv1 D K hr hs).symm k) = ix2 o k := by
    funext a; apply Fin.ext
    match a with
    | ⟨0, _⟩ => exact lhsIdx_val_of_free D hlb hln _ _
    | ⟨1, _⟩ => exact (D.lhsIdx_val_of_single hlc _ _).trans hk
  have eB : D.rhsIdx (ix2 o l) ((contrEquiv1 D K hr hs).symm k) = ix2 k l := by
    funext a; apply Fin.ext
    match a with
    | ⟨0, _⟩ => exact (D.rhsIdx_val_of_single hrc _ _).trans hk
    | ⟨1, _⟩ => exact rhsIdx_val_of_free D hlb hrb hln hrn _ _
  rw [eA, eB]

end Product

section Tile

variable {M K N : Nat}

/-- The tile: a weight matrix times an activation block carried as [1, K, N], plus a bias column copied along each
    row, stored back as [1, M, N]. Entry (0, o, l) is Σ_k W(o, k)·X(0, k, l) + b(o, 0). -/
theorem tile_apply (D : DotDims ⟨2, ![M, K]⟩ ⟨2, ![K, N]⟩ ⟨2, ![M, N]⟩)
    (hlc : D.lhsContracting = [1]) (hrc : D.rhsContracting = [0])
    (hln : D.lhsNonContracting = [0]) (hrn : D.rhsNonContracting = [1])
    (hlb : D.lhsBatch = []) (hrb : D.rhsBatch = [])
    (hW : (⟨2, ![M, K]⟩ : Shape).ShapeCasts ⟨2, ![M, K]⟩)
    (hX : (⟨3, ![1, K, N]⟩ : Shape).ShapeCasts ⟨2, ![K, N]⟩)
    (hB : (⟨2, ![M, 1]⟩ : Shape).ShapeCasts ⟨2, ![M, 1]⟩)
    (hbc : (⟨2, ![M, 1]⟩ : Shape).Broadcasts ⟨2, ![M, N]⟩)
    (hO : (⟨2, ![M, N]⟩ : Shape).ShapeCasts ⟨3, ![1, M, N]⟩)
    (W : FVec Ideal ⟨2, ![M, K]⟩ .f32) (X : FVec Ideal ⟨3, ![1, K, N]⟩ .f32) (b : FVec Ideal ⟨2, ![M, 1]⟩ .f32)
    (a : Fin 1) (o : Fin M) (l : Fin N) :
    shapeCast ⟨3, ![1, M, N]⟩
        (addf (matmul D none (shapeCast ⟨2, ![M, K]⟩ W hW) (shapeCast ⟨2, ![K, N]⟩ X hX)
            (constant (F := Ideal) ⟨2, ![M, N]⟩ .f32 0x00000000#32))
          (broadcastTo ⟨2, ![M, N]⟩ (shapeCast ⟨2, ![M, 1]⟩ b hB) hbc)) hO (ix3 a o l)
      = (∑ k : Fin K, W (ix2 o k) * X (ix3 0 k l)) + b (ix2 o 0) := by
  refine (shapeCast_addUnit_apply ![M, N] _ hO (ix3 a o l)).trans ?_
  have e1 : (fun a' : Fin 2 => (ix3 a o l : (⟨3, ![1, M, N]⟩ : Shape).Idx) a'.succ) = ix2 o l := by
    funext a'; match a' with | ⟨0, _⟩ => rfl | ⟨1, _⟩ => rfl
  rw [e1, addf_apply, matmul_zero_ix2 D hlc hrc hln hrn hlb hrb, shapeCast_self, shapeCast_self]
  congr 1
  · refine Finset.sum_congr rfl fun k _ => ?_
    congr 1
    refine (shapeCast_dropUnit_apply ![K, N] X hX (ix2 k l)).trans (congrArg X ?_)
    funext a'; match a' with | ⟨0, _⟩ => rfl | ⟨1, _⟩ => rfl | ⟨2, _⟩ => rfl
  · refine broadcastTo_apply b hbc (ix2 o l) (ix2 o 0) fun a' => ?_
    match a' with
    | ⟨0, _⟩ =>
      show o.val = if M = 1 then 0 else o.val
      split
      · have := o.isLt; omega
      · rfl
    | ⟨1, _⟩ => rfl

end Tile

end Idealize.ShloMosaic.MatmulTile

end
-- ==== Proof.ConvSpec.lean ====
/-
  The function both programs compute: a pointwise (kernel-size-one) convolution over channels. For a batch of 64
  activation matrices x[n] of 512 input channels by 2048 positions, a 512×512 weight matrix W and a bias column b,

      out[n, o, l] = Σ_k W[o, k] · x[n, k, l] + b[o, 0].

  Position l of the output reads position l of the input and no other position; that is what lets the positions be
  processed in tiles of any width, the last one cut at the array's end.
-/
import Idealize.ShloMosaic.PureOps.Ideal
import Idealize.ShloMosaic.Lib.ValueIdx

noncomputable section

namespace PointwiseConv

open Idealize.ShloMosaic Idealize.ShloMosaic.ValueIdx

/-- One output entry: channel o of batch row n at position l. -/
def mixAt (x : (⟨3, ![64, 512, 2048]⟩ : Shape).Idx → EReal) (W : (⟨2, ![512, 512]⟩ : Shape).Idx → EReal)
    (b : (⟨2, ![512, 1]⟩ : Shape).Idx → EReal) (n : Fin 64) (o : Fin 512) (l : Fin 2048) : EReal :=
  (∑ k : Fin 512, W (ix2 o k) * x (ix3 n k l)) + b (ix2 o 0)

/-- The whole output array. -/
def mix (x : (⟨3, ![64, 512, 2048]⟩ : Shape).Idx → EReal) (W : (⟨2, ![512, 512]⟩ : Shape).Idx → EReal)
    (b : (⟨2, ![512, 1]⟩ : Shape).Idx → EReal) : (⟨3, ![64, 512, 2048]⟩ : Shape).Idx → EReal :=
  fun i => mixAt x W b (i 0) (i 1) (i 2)

theorem mix_ix3 (x : (⟨3, ![64, 512, 2048]⟩ : Shape).Idx → EReal) (W : (⟨2, ![512, 512]⟩ : Shape).Idx → EReal)
    (b : (⟨2, ![512, 1]⟩ : Shape).Idx → EReal) (n : Fin 64) (o : Fin 512) (l : Fin 2048) :
    mix x W b (ix3 n o l) = mixAt x W b n o l := rfl

end PointwiseConv

end
-- ==== Proof.KernelValue.lean ====
/-
  The value of the row-at-a-time program at the exact-arithmetic instance. Its grid has one point per batch row n:
  the point stages x[n] whole (512 channels by 2048 positions), the weight matrix and the bias column whole, and
  stores W·x[n] + b over the whole [1, 512, 2048] result block, written back as row n of the result. The 64 blocks
  tile the result array, so after the run it holds out[n, o, l] = Σ_k W[o, k]·x[n, k, l] + b[o, 0] at every index.
-/
import proofs.«129321_g2000006126297917_pallasbulk_279_2_alg».proof.Proof.Gen.KernelIdeal.Value
import proofs.«129321_g2000006126297917_pallasbulk_279_2_alg».proof.Proof.LibMatmulTile
import proofs.«129321_g2000006126297917_pallasbulk_279_2_alg».proof.Proof.ConvSpec
import Idealize.ShloMosaic.Lib.ValueIdx
import Idealize.ShloMosaic.Lib.StableHlo.Run
import Idealize.ShloMosaic.Lib.Pipeline.Value

set_option maxRecDepth 16384

noncomputable section

namespace Cert.KernelIdeal.RowValue

open Cert.KernelIdeal Cert.KernelIdeal.Gen
open Idealize.ShloMosaic Idealize.ShloMosaic.TcCoe Idealize.ShloMosaic.ValueIdx Idealize.SL.Sem
open Idealize.ShloMosaic.Pipeline (Dat)
open PointwiseConv

/-! ## The body's result at an entry -/

/-- Entry (0, o, l) of what the body leaves in the result buffer: Σ_k W(o, k)·X(0, k, l) + b(o, 0). -/
theorem out_apply (x0 : Vec Ideal S1x512x2048 .f32) (x1 : Vec Ideal S512x512 .f32) (x2 : Vec Ideal S512x1 .f32)
    (a : Fin 1) (o : Fin 512) (l : Fin 2048) :
    out0_3 x0 x1 x2 (ix3 a o l) = (∑ k : Fin 512, x1 (ix2 o k) * x0 (ix3 0 k l)) + x2 (ix2 o 0) := by
  have hz3 : (![0, 0, 0] : Fin 3 → Nat) = fun _ => 0 := funext fun a => by fin_cases a <;> rfl
  have hz2 : (![0, 0] : Fin 2 → Nat) = fun _ => 0 := funext fun a => by fin_cases a <;> rfl
  unfold out0_3
  rw [View.canon_unit_zero hz3]
  simp only [View.ld_unit_zero (S := S512x512) hz2, View.ld_unit_zero (S := S1x512x2048) hz3,
    View.ld_unit_zero (S := S512x1) hz2]
  unfold k0_pay1
  exact MatmulTile.tile_apply (M := 512) (K := 512) (N := 2048) dot_S512x512_S512x2048_S512x2048_1_0_0_1_n_n
    rfl rfl rfl rfl rfl rfl _ _ _ _ _ x1 x0 x2 a o l

/-! ## Where each window's block sits, decided over the 64 points -/

theorem idx_x : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
theorem idx_w : ∀ t : Fin cfg0.N, win0_1.index t 0 = 0 ∧ win0_1.index t 1 = 0 :=
  (by decide +kernel : ∀ t : Fin grid0.N, win0_1.index t 0 = 0 ∧ win0_1.index t 1 = 0)
theorem idx_b : ∀ t : Fin cfg0.N, win0_2.index t 0 = 0 ∧ win0_2.index t 1 = 0 :=
  (by decide +kernel : ∀ t : Fin grid0.N, win0_2.index t 0 = 0 ∧ win0_2.index t 1 = 0)
theorem idx_o : ∀ t : Fin cfg0.N, win0_3.index t 0 = t.val ∧ win0_3.index t 1 = 0 ∧ win0_3.index t 2 = 0 :=
  (by decide +kernel : ∀ t : Fin grid0.N, win0_3.index t 0 = t.val ∧ win0_3.index t 1 = 0 ∧ win0_3.index t 2 = 0)

/-- A grid point names a batch row. -/
def rowOf (t : Fin cfg0.N) : Fin 64 := ⟨t.val, lt_of_lt_of_eq t.isLt N_0⟩

variable (m : (ℓ : Loc nD τ sig) → Buf (Elt Ideal) ℓ) (ρ : Dev nD → PrngReg)

/-! ## The input blocks read at an entry -/

/-- The activation block at point `t` is row `t` of the activation array. -/
theorem xblk_apply (c : Dev nD) (t : Fin cfg0.N) (k : Fin 512) (l : Fin 2048) :
    iblk m c 0 t (ix3 (0 : Fin 1) k l) = V m c main_arg0 (ix3 (rowOf t) k l) := by
  show V m c main_arg0 (((cfg0.win 0).blk t).view.emb (ix3 (0 : Fin 1) k l)) = V m c main_arg0 (ix3 (rowOf t) k l)
  refine congrArg _ (funext fun a => Fin.ext ?_)
  match a with
  | ⟨0, _⟩ => show win0_0.index t 0 * 1 + 1 * 0 = t.val; rw [(idx_x t).1]; omega
  | ⟨1, _⟩ => show win0_0.index t 1 * 512 + 1 * k.val = k.val; rw [(idx_x t).2.1]; omega
  | ⟨2, _⟩ => show win0_0.index t 2 * 2048 + 1 * l.val = l.val; rw [(idx_x t).2.2]; omega

/-- The weight block is the whole weight matrix as the region finds it. -/
theorem wblk_apply (c : Dev nD) (t : Fin cfg0.N) (o k : Fin 512) :
    iblk m c 1 t (ix2 o k) = V m c main_v0 (ix2 o k) := by
  show V m c main_v0 (((cfg0.win 1).blk t).view.emb (ix2 o k)) = V m c main_v0 (ix2 o k)
  refine congrArg _ (funext fun a => Fin.ext ?_)
  match a with
  | ⟨0, _⟩ => show win0_1.index t 0 * 512 + 1 * o.val = o.val; rw [(idx_w t).1]; omega
  | ⟨1, _⟩ => show win0_1.index t 1 * 512 + 1 * k.val = k.val; rw [(idx_w t).2]; omega

/-- The bias block is the whole bias column as the region finds it. -/
theorem bblk_apply (c : Dev nD) (t : Fin cfg0.N) (o : Fin 512) :
    iblk m c 2 t (ix2 o (0 : Fin 1)) = V m c main_v1 (ix2 o (0 : Fin 1)) := by
  show V m c main_v1 (((cfg0.win 2).blk t).view.emb (ix2 o (0 : Fin 1))) = V m c main_v1 (ix2 o (0 : Fin 1))
  refine congrArg _ (funext fun a => Fin.ext ?_)
  match a with
  | ⟨0, _⟩ => show win0_2.index t 0 * 512 + 1 * o.val = o.val; rw [(idx_b t).1]; omega
  | ⟨1, _⟩ => show win0_2.index t 1 * 1 + 1 * 0 = 0; rw [(idx_b t).2]

/-! ## The weight matrix and the bias column as the region finds them -/

/-- The host drops the weight tensor's trailing unit axis before the region: [512, 512, 1] read as [512, 512]. -/
theorem V_weights (c : Dev nD) : (V m c main_v0 : S512x512.Idx → EReal)
    = shapeCast S512x512 (m ((c : Thread nD τ).loc main_arg1)) shapeCasts_S512x512x1_S512x512 := by
  dsimp only [V, hostOps0]; after_results; rfl

/-- The host reads the bias vector as a column before the region: [512] read as [512, 1]. -/
theorem V_bias (c : Dev nD) : (V m c main_v1 : S512x1.Idx → EReal)
    = shapeCast S512x1 (m ((c : Thread nD τ).loc main_arg2)) shapeCasts_S512_S512x1 := by
  dsimp only [V, hostOps0]; after_results; rfl

/-! ## What a point writes back, and the final array -/

/-- The whole result as one function of the arrays the region finds. -/
abbrev result (c : Dev nD) : S64x512x2048.Idx → EReal :=
  mix (V m c main_arg0) (V m c main_v0) (V m c main_v1)

/-- Point `t` writes back row `t` of the result. -/
theorem flushed_eq (c : Dev nD) (t : Fin cfg0.N) :
    (dats m 0 c).flushed 3 t = ((cfg0.win 3).blk t).view.read (Elt Ideal) (result m c) := by
  rw [Value.flushed3]
  funext j
  obtain ⟨a, o, l, hy⟩ : ∃ (a : Fin 1) (o : Fin 512) (l : Fin 2048), win0_3.xinj (grid0.coords t) j = ix3 a o l :=
    ⟨_, _, _, eq_ix3 (n0 := 1) (n1 := 512) (n2 := 2048) (win0_3.xinj (grid0.coords t) j)⟩
  have h1 : o.val = (j 1).val := (congrArg Fin.val (congrFun hy 1)).symm
  have h2 : l.val = (j 2).val := (congrArg Fin.val (congrFun hy 2)).symm
  have h0 : (j 0).val = 0 := by have h : (j 0).val < 1 := (j 0).isLt; omega
  have he : ((cfg0.win 3).blk t).view.emb j = ix3 (rowOf t) o l := by
    funext a'; apply Fin.ext
    match a' with
    | ⟨0, _⟩ => show win0_3.index t 0 * 1 + 1 * (j 0).val = t.val; rw [(idx_o t).1, h0]; omega
    | ⟨1, _⟩ => show win0_3.index t 1 * 512 + 1 * (j 1).val = o.val; rw [(idx_o t).2.1, h1]; omega
    | ⟨2, _⟩ => show win0_3.index t 2 * 2048 + 1 * (j 2).val = l.val; rw [(idx_o t).2.2, h2]; omega
  show out0_3 (F := Ideal) (iblk m c 0 t) (iblk m c 1 t) (iblk m c 2 t) (win0_3.xinj (grid0.coords t) j)
    = result m c (((cfg0.win 3).blk t).view.emb j)
  refine ((congrArg (out0_3 (F := Ideal) (iblk m c 0 t) (iblk m c 1 t) (iblk m c 2 t)) hy).trans
    (out_apply (iblk m c 0 t) (iblk m c 1 t) (iblk m c 2 t) a o l)).trans ?_
  refine Eq.trans ?_ (congrArg (result m c) he).symm
  show _ = mixAt (V m c main_arg0) (V m c main_v0) (V m c main_v1) (rowOf t) o l
  unfold mixAt
  exact congrArg₂ (HAdd.hAdd : EReal → EReal → EReal)
    (Finset.sum_congr rfl fun k _ => congrArg₂ (HMul.hMul : EReal → EReal → EReal)
      (wblk_apply m c t o k) (xblk_apply m c t k l))
    (bblk_apply m c t o)

/-- Every index of the result array is in the block of the point its batch row names. -/
theorem covered (i : S64x512x2048.Idx) :
    ∃ t : Fin cfg0.N, (cfg0.win 3).flush t = true ∧ i ∈ ((cfg0.win 3).blk t).view.set := by
  have hi0 : (i 0).val < 64 := (i 0).isLt
  have hi1 : (i 1).val < 512 := (i 1).isLt
  have hi2 : (i 2).val < 2048 := (i 2).isLt
  obtain ⟨t, ht⟩ : ∃ t : Fin cfg0.N, t.val = (i 0).val := ⟨⟨(i 0).val, lt_of_lt_of_eq hi0 N_0.symm⟩, rfl⟩
  refine ⟨t, flush0_3 t, ?_⟩
  show i ∈ ((View.whole main_v2).slice (win0_3.rect t)).set
  rw [View.set_slice_whole, Rect.mem_set_unit]
  intro a
  match a with
  | ⟨0, _⟩ =>
    show win0_3.index t 0 * 1 ≤ (i 0).val ∧ (i 0).val < win0_3.index t 0 * 1 + 1
    rw [(idx_o t).1]; omega
  | ⟨1, _⟩ =>
    show win0_3.index t 1 * 512 ≤ (i 1).val ∧ (i 1).val < win0_3.index t 1 * 512 + 512
    rw [(idx_o t).2.1]; omega
  | ⟨2, _⟩ =>
    show win0_3.index t 2 * 2048 ≤ (i 2).val ∧ (i 2).val < win0_3.index t 2 * 2048 + 2048
    rw [(idx_o t).2.2]; omega

/-- After the run the result array is the pointwise convolution of the arrays the region found. -/
theorem final (c : Dev nD) : (dats m 0 c).arrAt 3 cfg0.N = result m c :=
  (dats m 0 c).arrAt_eq_of_cover 3 (result m c) (fun t _ => flushed_eq m c t) covered

/-- The run, the result array named and the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.RowValue

end
-- ==== Proof.RefBody.lean ====
/-
  The reference's tile body, run once: on whole staging buffers holding a weight matrix W, an activation tile X
  carried as [1, 512, 1664] and a bias column b, it loads all three, forms W·X + b (the column copied along each
  row), and stores the result over the whole output buffer. What the output buffer then holds is named `tileOut`:
  the one store's payload over what the three loads read.
-/
import proofs.«129321_g2000006126297917_pallasbulk_279_2_alg».proof.Proof.Gen.ReferenceIdeal.Frame
import proofs.«129321_g2000006126297917_pallasbulk_279_2_alg».proof.Proof.Gen.ReferenceIdeal.Skeleton

set_option maxRecDepth 16384

noncomputable section

namespace Cert.ReferenceIdeal.Tiles

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three whole-buffer rectangles the body reads and writes through. -/
abbrev rectW : Rect S512x512 := Rect.unit (s := S512x512) ![0, 0] S512x512.size inb_S512x512_S512x512_0_0
abbrev rectX : Rect S1x512x1664 := Rect.unit (s := S1x512x1664) ![0, 0, 0] S1x512x1664.size inb_S1x512x1664_S1x512x1664_0_0_0
abbrev rectB : Rect S512x1 := Rect.unit (s := S512x1) ![0, 0] S512x1.size inb_S512x1_S512x1_0_0

/-- What the output buffer holds after the body, from what the three input buffers hold. -/
def tileOut (x0 : Vec F S1x512x1664 .f32) (x1 : Vec F S512x512 .f32) (x2 : Vec F S512x1 .f32) : Vec F S1x512x1664 .f32 :=
  View.canon [⟨rectX, k0_pay1 (View.ld x1 rectW) (View.ld x0 rectX) (View.ld x2 rectB)⟩]

/-- The one store covers the output buffer. -/
theorem store_covers (p0 : Vec F S1x512x1664 .f32) (y : S1x512x1664.Idx) :
    ∃ pc ∈ ([⟨rectX, p0⟩] : List (View.Piece (Elt F) S1x512x1664 .f32)), y ∈ pc.1.set :=
  View.cover_of_tiled [⟨rectX, p0⟩] S1x512x1664.size (by rfl) y

set_option maxHeartbeats 1000000 in
/-- The body on whole buffers: the inputs' contents stay, the output's become `tileOut` of them. -/
theorem sound_kernel (c : Dev nD) (E : Set ℕ) (i : grid0.Coords)
    (arg2 : Memref sig .tc .vmem S1x512x1664 .f32) (harg2 : arg2.IsWhole)
    (arg3 : Memref sig .tc .vmem S512x512 .f32) (harg3 : arg3.IsWhole)
    (arg4 : Memref sig .tc .vmem S512x1 .f32) (harg4 : arg4.IsWhole)
    (arg5 : Memref sig .tc .vmem S1x512x1664 .f32) (harg5 : arg5.IsWhole)
    (x0 : Vec F S1x512x1664 .f32) (x1 : Vec F S512x512 .f32) (x2 : Vec F S512x1 .f32) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (iprop(owns (c : Thread nD τ) arg2 fullShare x0 ∗ owns (c : Thread nD τ) arg3 fullShare x1
            ∗ owns (c : Thread nD τ) arg4 fullShare x2 ∗ owns (c : Thread nD τ) arg5 fullShare (tileOut x0 x1 x2)) -∗ K ⟨⟩))
      ⊢ wp frame (wpE (defs₀ (F := F)) Variants.none c none) E
          (cc0__conv1x1_kernel i arg2 harg2 arg3 harg3 arg4 harg4 arg5 harg5) K := by
  simp only [cc0__conv1x1_kernel_eq_skeleton]; unfold cc0__conv1x1_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (store_covers _)

end Cert.ReferenceIdeal.Tiles

end
-- ==== Proof.RefData.lean ====
/-
  The reference's pipeline at the exact-arithmetic instance: what its tile body leaves at an entry, why the columns
  past the array's end never matter, the proof data of the run, the body's obligation at every grid point, the run
  and the frame.

  The grid is 64 batch rows by 2 position tiles of width 1664 over 2048 positions: the second tile overhangs the
  array by 1280 columns, so its fetch fills only the first 384 columns of the staging buffer with the array's and
  leaves the rest at words nothing names, and its write-back writes only those 384 columns. Column l of the tile's
  result reads column l of the activation tile alone (the product contracts the channel axis, not the positions),
  so the 384 columns written back do not depend on the unnamed words.
-/
import proofs.«129321_g2000006126297917_pallasbulk_279_2_alg».proof.Proof.RefBody
import proofs.«129321_g2000006126297917_pallasbulk_279_2_alg».proof.Proof.LibMatmulTile
import Idealize.ShloMosaic.Lib.ValueIdx
import Idealize.ShloMosaic.Lib.Pipeline.Value

set_option maxRecDepth 16384

noncomputable section

namespace Cert.ReferenceIdeal.Tiles

open Cert.ReferenceIdeal Cert.ReferenceIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-! ## The tile at an entry -/

/-- Entry (0, o, l) of what the body leaves: Σ_k W(o, k)·X(0, k, l) + b(o, 0). -/
theorem tileOut_apply (x0 : Vec Ideal S1x512x1664 .f32) (x1 : Vec Ideal S512x512 .f32) (x2 : Vec Ideal S512x1 .f32)
    (a : Fin 1) (o : Fin 512) (l : Fin 1664) :
    tileOut x0 x1 x2 (ix3 a o l) = (∑ k : Fin 512, x1 (ix2 o k) * x0 (ix3 0 k l)) + x2 (ix2 o 0) := by
  have hz3 : (![0, 0, 0] : Fin 3 → Nat) = fun _ => 0 := funext fun a => by fin_cases a <;> rfl
  have hz2 : (![0, 0] : Fin 2 → Nat) = fun _ => 0 := funext fun a => by fin_cases a <;> rfl
  unfold tileOut
  rw [View.canon_unit_zero hz3]
  simp only [View.ld_unit_zero (S := S512x512) hz2, View.ld_unit_zero (S := S1x512x1664) hz3,
    View.ld_unit_zero (S := S512x1) hz2]
  unfold k0_pay1
  exact MatmulTile.tile_apply (M := 512) (K := 512) (N := 1664) dot_S512x512_S512x1664_S512x1664_1_0_0_1_n_n
    rfl rfl rfl rfl rfl rfl _ _ _ _ _ x1 x0 x2 a o l

/-! ## The cut of a tile: which columns a transfer moves -/

/-- Every transfer of the activation window moves the tile's one batch row and all 512 channels. -/
theorem xsize_rows : ∀ t : Fin cfg0.N, win0_0.xsize (grid0.coords t) 0 = 1 ∧ win0_0.xsize (grid0.coords t) 1 = 512 :=
  (by decide +kernel : ∀ t : Fin grid0.N, win0_0.xsize (grid0.coords t) 0 = 1 ∧ win0_0.xsize (grid0.coords t) 1 = 512)

/-- The result window is cut as the activation window is. -/
theorem xsize_out : ∀ (t : Fin cfg0.N) (a : Fin 3), win0_3.xsize (grid0.coords t) a = win0_0.xsize (grid0.coords t) a :=
  (by decide +kernel : ∀ (t : Fin grid0.N) (a : Fin 3), win0_3.xsize (grid0.coords t) a = win0_0.xsize (grid0.coords t) a)

/-- An entry of the tile is moved by the transfer at point `t` as soon as its column is. -/
theorem moved_col (t : Fin cfg0.N) (k : Fin 512) (l : Fin 1664) (hl : l.val < win0_0.xsize (grid0.coords t) 2) :
    win0_0.moved (grid0.coords t) (ix3 (0 : Fin 1) k l) = true :=
  (win0_0.moved_iff (grid0.coords t) _).mpr fun a' => by
    match a' with
    | ⟨0, _⟩ => show (0 : Nat) < win0_0.xsize (grid0.coords t) 0; rw [(xsize_rows t).1]; exact Nat.one_pos
    | ⟨1, _⟩ => show k.val < win0_0.xsize (grid0.coords t) 1; rw [(xsize_rows t).2]; exact k.isLt
    | ⟨2, _⟩ => exact hl

/-- On a column the fetch fills, a filled tile holds the fetched block whatever it was filled over. -/
theorem fill_agree {α : Type} (t : Fin cfg0.N) (d d' : S1x512x1664.Idx → α)
    (b : (win0_0.xblock (grid0.coords t)).Idx → α) (k : Fin 512) (l : Fin 1664)
    (hl : l.val < win0_0.xsize (grid0.coords t) 2) :
    win0_0.fill (grid0.coords t) d b (ix3 0 k l) = win0_0.fill (grid0.coords t) d' b (ix3 0 k l) := by
  have hm := moved_col t k l hl
  unfold Pipeline.Window.fill
  rw [dif_pos hm, dif_pos hm]

/-! ## The result tile's written-back columns do not depend on the unnamed words -/

/-- The columns of the result tile that the write-back moves are the same whatever the activation tile was
    filled over past the array's end: each reads only its own column of the activation tile, a fetched one. -/
theorem cut_tileOut_agree (t : Fin cfg0.N) (d d' : S1x512x1664.Idx → Elt Ideal .f32)
    (b : (win0_0.xblock (grid0.coords t)).Idx → Elt Ideal .f32) (x1 : Vec Ideal S512x512 .f32) (x2 : Vec Ideal S512x1 .f32) :
    win0_3.cut (grid0.coords t) (tileOut (win0_0.fill (grid0.coords t) d b) x1 x2)
      = win0_3.cut (grid0.coords t) (tileOut (win0_0.fill (grid0.coords t) d' b) x1 x2) := by
  funext j
  obtain ⟨a, o, l, hy⟩ : ∃ (a : Fin 1) (o : Fin 512) (l : Fin 1664), win0_3.xinj (grid0.coords t) j = ix3 a o l :=
    ⟨_, _, _, eq_ix3 (n0 := 1) (n1 := 512) (n2 := 1664) (win0_3.xinj (grid0.coords t) j)⟩
  have hl : l.val < win0_0.xsize (grid0.coords t) 2 := by
    have h2 : l.val = (j 2).val := by
      have := congrFun hy 2
      exact (congrArg Fin.val this).symm
    rw [h2, ← xsize_out t 2]; exact (j 2).isLt
  show tileOut _ x1 x2 (win0_3.xinj (grid0.coords t) j) = tileOut _ x1 x2 (win0_3.xinj (grid0.coords t) j)
  rw [hy, tileOut_apply, tileOut_apply]
  congr 1
  refine Finset.sum_congr rfl fun k _ => ?_
  rw [fill_agree t d d' b k l hl]

/-! ## The proof data -/

variable (m : (ℓ : Loc nD τ sig) → Buf (Elt Ideal) ℓ) (ρ : Dev nD → PrngReg)

/-- The activation tile as a staging buffer holds it after the fetch at point `t`, the columns past the array's end
    at zero (any value would do: no obligation states them). -/
def xtile (c : Dev nD) (t : Fin cfg0.N) : S1x512x1664.Idx → Elt Ideal .f32 :=
  win0_0.fill (grid0.coords t) (fun _ => (0 : EReal)) (iblk m c 0 t)

/-- The proof data of the one pipeline on core `c`: the arrays as the region finds them; after the body at point
    `t` the activation buffer at its tile, the weight and bias buffers at their (whole-array) blocks, the result
    buffer at the body's result of those; the class's invariant; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => xtile m c t
    | ⟨1, _⟩ => iblk m c 1 t
    | ⟨2, _⟩ => iblk m c 2 t
    | ⟨3, _⟩ => tileOut (xtile m c t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = xtile m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = tileOut (xtile m c t) (iblk m c 1 t) (iblk m c 2 t) := by dsimp only [dats]

/-- The activation buffer is fetched at every point: it holds the array's tile on the fetched columns and whatever
    the overwrite before the fetch left on the others. -/
theorem before_0 (c : Dev nD) (t : Fin cfg0.N) (d) :
    (dats m 0 c).before 0 t d = win0_0.fill (grid0.coords t) d (iblk m c 0 t) := by
  unfold Dat.before; rw [if_pos (fetch0_0 t)]; rfl

/-- The weight and bias buffers hold their blocks at every point, fetched there or not. -/
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-! ## The body's obligation at a grid point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns: the two clipped windows' buffers stated on the columns their transfers move only. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        ((cfg0.win 0).fill (grid0.coords t) d ((cfg0.win 0).cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare
        ((cfg0.win 3).fill (grid0.coords t) d ((cfg0.win 3).cut (grid0.coords t) ((dats m 0 c).after 3 t)))))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after_0, after_1, after_2, after_3]
  iintro ⟨HΦ, Ho, ⟨%d0, H0⟩, ⟨%d1, H1⟩, ⟨%d2, H2⟩, ⟨%d3, H3⟩⟩
  rw [before_0 m c t d0, before_1 m c t d1, before_2 m c t d2]
  iapply (sound_kernel c Set.univ (grid0.coords t) _ _ _ _ _ _ _ _
    (win0_0.fill (grid0.coords t) d0 (iblk m c 0 t)) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  -- the activation buffer still holds the tile over `d0`; its fetched columns are the block
  have h0 : win0_0.fill (grid0.coords t) d0 (win0_0.cut (grid0.coords t) (xtile m c t))
      = win0_0.fill (grid0.coords t) d0 (iblk m c 0 t) := by
    unfold xtile; rw [win0_0.cut_fill]
  -- the result buffer's written-back columns are the proof data's
  have h3 : win0_3.fill (grid0.coords t) (tileOut (win0_0.fill (grid0.coords t) d0 (iblk m c 0 t)) (iblk m c 1 t) (iblk m c 2 t))
        (win0_3.cut (grid0.coords t) (tileOut (xtile m c t) (iblk m c 1 t) (iblk m c 2 t)))
      = tileOut (win0_0.fill (grid0.coords t) d0 (iblk m c 0 t)) (iblk m c 1 t) (iblk m c 2 t) :=
    win0_3.fill_congr_cut (grid0.coords t) (cut_tileOut_agree t _ _ _ _ _)
  isplitl [H0]
  · iexists d0
    change _ ⊢ owns (c : Thread nD τ) (st0_0 t) fullShare (win0_0.fill (grid0.coords t) d0 (win0_0.cut (grid0.coords t) (xtile m c t)))
    rw [h0]
  isplitl [H1]; · iexact H1
  isplitl [H2]; · iexact H2
  iexists tileOut (win0_0.fill (grid0.coords t) d0 (iblk m c 0 t)) (iblk m c 1 t) (iblk m c 2 t)
  change _ ⊢ owns (c : Thread nD τ) (st0_3 t) fullShare (win0_3.fill (grid0.coords t) _ (win0_3.cut (grid0.coords t) (tileOut (xtile m c t) (iblk m c 1 t) (iblk m c 2 t))))
  rw [h3]

/-- The library's body obligation, at every point. -/
theorem body_obligation (c : Dev nD) :
    BodyObligationLoose (dats m 0 c) (defs₀ (F := Ideal)) Variants.none () Set.univ := fun t => by
  rw [bigSep_W0, bigSep_W0]
  exact sound_body m c t

/-! ## The run and the frame -/

set_option backward.isDefEq.respectTransparency.types false in
/-- Every weakly fair execution of @main terminates, every array of the pipeline ending at what the library computes
    from the proof data and every other unscoped buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame: the run terminates without a fault and the three argument arrays end unchanged. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.ReferenceIdeal.Tiles

end
-- ==== Proof.RefValue.lean ====
/-
  The value of the tiled reference at the exact-arithmetic instance. Grid point t = 2n + p handles batch row n and
  position tile p: positions 0‥1663 for p = 0, positions 1664‥2047 for p = 1 (the first 384 columns of a tile that
  overhangs the array). What it writes back is the tile's written columns of out[n] = W·x[n] + b; the two tiles of
  each row cover the row's 2048 positions, so after the run the result array is the pointwise convolution at
  every index.
-/
import proofs.«129321_g2000006126297917_pallasbulk_279_2_alg».proof.Proof.RefData
import proofs.«129321_g2000006126297917_pallasbulk_279_2_alg».proof.Proof.ConvSpec
import Idealize.ShloMosaic.Lib.StableHlo.Run

set_option maxRecDepth 16384

noncomputable section

namespace Cert.ReferenceIdeal.Tiles

open Cert.ReferenceIdeal Cert.ReferenceIdeal.Gen
open Idealize.ShloMosaic Idealize.ShloMosaic.TcCoe Idealize.ShloMosaic.ValueIdx Idealize.SL.Sem
open Idealize.ShloMosaic.Pipeline (Dat)
open PointwiseConv

/-! ## Where each window's block sits, decided over the 128 points -/

theorem idx_x : ∀ t : Fin cfg0.N, win0_0.index t 0 = t.val / 2 ∧ win0_0.index t 1 = 0 ∧ win0_0.index t 2 = t.val % 2 :=
  (by decide +kernel : ∀ t : Fin grid0.N, win0_0.index t 0 = t.val / 2 ∧ win0_0.index t 1 = 0 ∧ win0_0.index t 2 = t.val % 2)
theorem idx_w : ∀ t : Fin cfg0.N, win0_1.index t 0 = 0 ∧ win0_1.index t 1 = 0 :=
  (by decide +kernel : ∀ t : Fin grid0.N, win0_1.index t 0 = 0 ∧ win0_1.index t 1 = 0)
theorem idx_b : ∀ t : Fin cfg0.N, win0_2.index t 0 = 0 ∧ win0_2.index t 1 = 0 :=
  (by decide +kernel : ∀ t : Fin grid0.N, win0_2.index t 0 = 0 ∧ win0_2.index t 1 = 0)
theorem idx_o : ∀ t : Fin cfg0.N, win0_3.index t 0 = t.val / 2 ∧ win0_3.index t 1 = 0 ∧ win0_3.index t 2 = t.val % 2 :=
  (by decide +kernel : ∀ t : Fin grid0.N, win0_3.index t 0 = t.val / 2 ∧ win0_3.index t 1 = 0 ∧ win0_3.index t 2 = t.val % 2)

/-- The first tile of a row moves all 1664 of its columns, the second the 384 that lie inside the array. -/
theorem xsize_cols : ∀ t : Fin cfg0.N, (t.val % 2 = 0 → win0_0.xsize (grid0.coords t) 2 = 1664)
      ∧ (t.val % 2 = 1 → win0_0.xsize (grid0.coords t) 2 = 384) :=
  (by decide +kernel : ∀ t : Fin grid0.N, (t.val % 2 = 0 → win0_0.xsize (grid0.coords t) 2 = 1664)
      ∧ (t.val % 2 = 1 → win0_0.xsize (grid0.coords t) 2 = 384))

/-- A grid point's batch row. -/
def rowOf (t : Fin cfg0.N) : Fin 64 := ⟨t.val / 2, by have := lt_of_lt_of_eq t.isLt N_0; omega⟩

/-- A moved column of a grid point's tile, as a position of the array. -/
theorem col_lt (t : Fin cfg0.N) (l : Nat) (hl : l < win0_0.xsize (grid0.coords t) 2) : t.val % 2 * 1664 + l < 2048 := by
  have hx := xsize_cols t
  have hp : t.val % 2 = 0 ∨ t.val % 2 = 1 := by omega
  rcases hp with h | h
  · have := hx.1 h; omega
  · have := hx.2 h; omega

variable (m : (ℓ : Loc nD τ sig) → Buf (Elt Ideal) ℓ) (ρ : Dev nD → PrngReg)

/-! ## The input blocks read at an entry -/

/-- On a fetched column the activation tile holds the activation array's entry at the tile's row and position. -/
theorem xtile_apply (c : Dev nD) (t : Fin cfg0.N) (k : Fin 512) (l : Fin 1664)
    (hl : l.val < win0_0.xsize (grid0.coords t) 2) (L : Fin 2048) (hL : L.val = t.val % 2 * 1664 + l.val) :
    xtile m c t (ix3 (0 : Fin 1) k l) = V m c main_arg0 (ix3 (rowOf t) k L) := by
  have hm := moved_col t k l hl
  unfold xtile Pipeline.Window.fill
  rw [dif_pos hm]
  show V m c main_arg0 (((cfg0.win 0).blk t).view.emb _) = V m c main_arg0 (ix3 (rowOf t) k L)
  refine congrArg _ (funext fun a => Fin.ext ?_)
  match a with
  | ⟨0, _⟩ => show win0_0.index t 0 * 1 + 1 * 0 = t.val / 2; rw [(idx_x t).1]; omega
  | ⟨1, _⟩ => show win0_0.index t 1 * 512 + 1 * k.val = k.val; rw [(idx_x t).2.1]; omega
  | ⟨2, _⟩ => show win0_0.index t 2 * 1664 + 1 * l.val = L.val; rw [(idx_x t).2.2, hL]; omega

/-- The weight block is the whole weight matrix as the region finds it. -/
theorem wblk_apply (c : Dev nD) (t : Fin cfg0.N) (o k : Fin 512) :
    iblk m c 1 t (ix2 o k) = V m c main_v0 (ix2 o k) := by
  show V m c main_v0 (((cfg0.win 1).blk t).view.emb (ix2 o k)) = V m c main_v0 (ix2 o k)
  refine congrArg _ (funext fun a => Fin.ext ?_)
  match a with
  | ⟨0, _⟩ => show win0_1.index t 0 * 512 + 1 * o.val = o.val; rw [(idx_w t).1]; omega
  | ⟨1, _⟩ => show win0_1.index t 1 * 512 + 1 * k.val = k.val; rw [(idx_w t).2]; omega

/-- The bias block is the whole bias column as the region finds it. -/
theorem bblk_apply (c : Dev nD) (t : Fin cfg0.N) (o : Fin 512) :
    iblk m c 2 t (ix2 o (0 : Fin 1)) = V m c main_v1 (ix2 o (0 : Fin 1)) := by
  show V m c main_v1 (((cfg0.win 2).blk t).view.emb (ix2 o (0 : Fin 1))) = V m c main_v1 (ix2 o (0 : Fin 1))
  refine congrArg _ (funext fun a => Fin.ext ?_)
  match a with
  | ⟨0, _⟩ => show win0_2.index t 0 * 512 + 1 * o.val = o.val; rw [(idx_b t).1]; omega
  | ⟨1, _⟩ => show win0_2.index t 1 * 1 + 1 * 0 = 0; rw [(idx_b t).2]

/-! ## The weight matrix and the bias column as the region finds them -/

/-- The host drops the weight tensor's trailing unit axis before the region: [512, 512, 1] read as [512, 512]. -/
theorem V_weights (c : Dev nD) : (V m c main_v0 : S512x512.Idx → EReal)
    = shapeCast S512x512 (m ((c : Thread nD τ).loc main_arg1)) shapeCasts_S512x512x1_S512x512 := by
  dsimp only [V, hostOps0]; after_results; rfl

/-- The host reads the bias vector as a column before the region: [512] read as [512, 1]. -/
theorem V_bias (c : Dev nD) : (V m c main_v1 : S512x1.Idx → EReal)
    = shapeCast S512x1 (m ((c : Thread nD τ).loc main_arg2)) shapeCasts_S512_S512x1 := by
  dsimp only [V, hostOps0]; after_results; rfl

/-! ## What a point writes back, and the final array -/

/-- The whole result as one function of the arrays the region finds. -/
abbrev result (c : Dev nD) : S64x512x2048.Idx → EReal :=
  mix (V m c main_arg0) (V m c main_v0) (V m c main_v1)

/-- Point `t` writes back its tile's moved columns of the result's row. -/
theorem flushed_eq (c : Dev nD) (t : Fin cfg0.N) :
    (dats m 0 c).flushed 3 t = ((cfg0.win 3).blk t).view.read (Elt Ideal) (result m c) := by
  show (cfg0.win 3).cut (grid0.coords t) ((dats m 0 c).after 3 t) = _
  rw [after_3]
  funext j
  obtain ⟨a, o, l, hy⟩ : ∃ (a : Fin 1) (o : Fin 512) (l : Fin 1664), win0_3.xinj (grid0.coords t) j = ix3 a o l :=
    ⟨_, _, _, eq_ix3 (n0 := 1) (n1 := 512) (n2 := 1664) (win0_3.xinj (grid0.coords t) j)⟩
  have h1 : o.val = (j 1).val := (congrArg Fin.val (congrFun hy 1)).symm
  have h2 : l.val = (j 2).val := (congrArg Fin.val (congrFun hy 2)).symm
  have hl : l.val < win0_0.xsize (grid0.coords t) 2 := by
    rw [h2, ← xsize_out t 2]; exact (j 2).isLt
  have h0 : (j 0).val = 0 := by
    have h : (j 0).val < win0_3.xsize (grid0.coords t) 0 := (j 0).isLt
    rw [xsize_out t 0, (xsize_rows t).1] at h; omega
  let L : Fin 2048 := ⟨t.val % 2 * 1664 + l.val, col_lt t l.val hl⟩
  have he : ((cfg0.win 3).blk t).view.emb j = ix3 (rowOf t) o L := by
    funext a'; apply Fin.ext
    match a' with
    | ⟨0, _⟩ => show win0_3.index t 0 * 1 + 1 * (j 0).val = t.val / 2; rw [(idx_o t).1, h0]; omega
    | ⟨1, _⟩ => show win0_3.index t 1 * 512 + 1 * (j 1).val = o.val; rw [(idx_o t).2.1, h1]; omega
    | ⟨2, _⟩ => show win0_3.index t 2 * 1664 + 1 * (j 2).val = t.val % 2 * 1664 + l.val; rw [(idx_o t).2.2, h2]; omega
  show tileOut (F := Ideal) (xtile m c t) (iblk m c 1 t) (iblk m c 2 t) (win0_3.xinj (grid0.coords t) j)
    = result m c (((cfg0.win 3).blk t).view.emb j)
  refine ((congrArg (tileOut (F := Ideal) (xtile m c t) (iblk m c 1 t) (iblk m c 2 t)) hy).trans
    (tileOut_apply (xtile m c t) (iblk m c 1 t) (iblk m c 2 t) a o l)).trans ?_
  refine Eq.trans ?_ (congrArg (result m c) he).symm
  show _ = mixAt (V m c main_arg0) (V m c main_v0) (V m c main_v1) (rowOf t) o L
  unfold mixAt
  exact congrArg₂ (HAdd.hAdd : EReal → EReal → EReal)
    (Finset.sum_congr rfl fun k _ => congrArg₂ (HMul.hMul : EReal → EReal → EReal)
      (wblk_apply m c t o k) (xtile_apply m c t k l hl L rfl))
    (bblk_apply m c t o)

/-- Every index of the result array is in the block of the point its batch row and its position's tile name. -/
theorem covered (i : S64x512x2048.Idx) :
    ∃ t : Fin cfg0.N, (cfg0.win 3).flush t = true ∧ i ∈ ((cfg0.win 3).blk t).view.set := by
  have hi0 : (i 0).val < 64 := (i 0).isLt
  have hi1 : (i 1).val < 512 := (i 1).isLt
  have hi2 : (i 2).val < 2048 := (i 2).isLt
  obtain ⟨t, ht⟩ : ∃ t : Fin cfg0.N, t.val = 2 * (i 0).val + (i 2).val / 1664 :=
    ⟨⟨2 * (i 0).val + (i 2).val / 1664, by rw [show cfg0.N = 128 from N_0]; omega⟩, rfl⟩
  refine ⟨t, flush0_3 t, ?_⟩
  show i ∈ ((View.whole main_v2).slice (win0_3.rect t)).set
  rw [View.set_slice_whole, Rect.mem_set_unit]
  have hx := xsize_cols t
  intro a
  match a with
  | ⟨0, _⟩ =>
    show win0_3.index t 0 * 1 ≤ (i 0).val ∧ (i 0).val < win0_3.index t 0 * 1 + win0_3.xsize (grid0.coords t) 0
    rw [(idx_o t).1, xsize_out t 0, (xsize_rows t).1]; omega
  | ⟨1, _⟩ =>
    show win0_3.index t 1 * 512 ≤ (i 1).val ∧ (i 1).val < win0_3.index t 1 * 512 + win0_3.xsize (grid0.coords t) 1
    rw [(idx_o t).2.1, xsize_out t 1, (xsize_rows t).2]; omega
  | ⟨2, _⟩ =>
    show win0_3.index t 2 * 1664 ≤ (i 2).val ∧ (i 2).val < win0_3.index t 2 * 1664 + win0_3.xsize (grid0.coords t) 2
    rw [(idx_o t).2.2, xsize_out t 2]
    have hp : t.val % 2 = 0 ∨ t.val % 2 = 1 := by omega
    rcases hp with h | h
    · have := hx.1 h; omega
    · have := hx.2 h; omega

/-- After the run the result array is the pointwise convolution of the arrays the region found. -/
theorem final (c : Dev nD) : (dats m 0 c).arrAt 3 cfg0.N = result m c :=
  (dats m 0 c).arrAt_eq_of_cover 3 (result m c) (fun t _ => flushed_eq m c t) covered

/-- The run, the result array named and the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 3).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.ReferenceIdeal.Tiles

end
-- ==== Proof.lean ====
/-
  A pointwise (kernel-size-one) convolution over channels, two ways. Both programs compute, for 64 batch rows of
  512 channels by 2048 positions, a 512×512 weight matrix W (the weight tensor with its trailing unit axis dropped)
  and a bias column b (the bias vector read as a column),

      out[n, o, l] = Σ_k W[o, k] · x[n, k, l] + b[o, 0].

  The first program takes one batch row per grid point: it stages x[n] whole and writes W·x[n] + b back as row n.
  The second splits each row's positions into two tiles of width 1664; the second tile overhangs the array, so
  only its first 384 columns are fetched from, and written back to, the array. Because the product contracts the
  channel axis and never the positions, column l of a tile's result reads column l of the activation tile alone:
  the columns past the array's end, whose contents nothing names, never reach a written-back column. Over the
  extended reals both result arrays are therefore the same function of the arguments, index by index, with no use
  of the inputs' finiteness: the two sides are the same sum of the same products.

  The row-at-a-time program's frames are the generated ones; its value is read off the generated blockwise value
  leg. The tiled program's frame and value are proved here from its body's run, with the two clipped windows
  stated on the columns their transfers move.
-/
import proofs.«129321_g2000006126297917_pallasbulk_279_2_alg».proof.Defs
import proofs.«129321_g2000006126297917_pallasbulk_279_2_alg».proof.Proof.Gen.Kernel
import proofs.«129321_g2000006126297917_pallasbulk_279_2_alg».proof.Proof.Gen.Kernel.Frame
import proofs.«129321_g2000006126297917_pallasbulk_279_2_alg».proof.Proof.Gen.KernelIdeal
import proofs.«129321_g2000006126297917_pallasbulk_279_2_alg».proof.Proof.Gen.KernelIdeal.Frame
import proofs.«129321_g2000006126297917_pallasbulk_279_2_alg».proof.Proof.Gen.ReferenceIdeal
import proofs.«129321_g2000006126297917_pallasbulk_279_2_alg».proof.Proof.Gen.Pre_finite_inputs
import proofs.«129321_g2000006126297917_pallasbulk_279_2_alg».proof.Proof.KernelValue
import proofs.«129321_g2000006126297917_pallasbulk_279_2_alg».proof.Proof.RefValue
import Idealize.ShloMosaic.Adequacy
import Idealize.ShloMosaic.Init

noncomputable section

namespace Cert.Proof

open Idealize.ShloMosaic Idealize.SL.Sem

/-- The row-at-a-time program, word level: it terminates without a fault and leaves its arguments unchanged. -/
theorem frame_rows : Cert.frame_Kernel := fun m ρ _ => Cert.Kernel.Gen.frame m ρ

/-- The same at the exact-arithmetic instance. -/
theorem frame_rows_ideal : Cert.frame_KernelIdeal := fun m ρ _ => Cert.KernelIdeal.Gen.frame m ρ

/-- The tiled program at the exact-arithmetic instance. -/
theorem frame_tiles : Cert.frame_ReferenceIdeal := fun m ρ _ => Cert.ReferenceIdeal.Tiles.frame m ρ

/-- The idealization rewrote nothing. -/
theorem preserves : Cert.preserves_Kernel_KernelIdeal := trivial

/-- From arguments that agree, both programs end with the pointwise convolution of those arguments in their
    result arrays. -/
theorem algebraic : Cert.algebraic_KernelIdeal_ReferenceIdeal := by
  intro m ρ m' ρ' _ hagree
  refine ⟨fun c => Cert.KernelIdeal.RowValue.result m c, Cert.KernelIdeal.RowValue.run m ρ, ?_⟩
  refine (θ_run Cert.ReferenceIdeal.defs _ _).mono (fun r h c => ⟨(h c).1.trans ?_, (h c).2⟩)
    (Cert.ReferenceIdeal.Tiles.run m' ρ')
  show PointwiseConv.mix (Cert.ReferenceIdeal.Gen.V m' c Cert.ReferenceIdeal.main_arg0)
      (Cert.ReferenceIdeal.Gen.V m' c Cert.ReferenceIdeal.main_v0) (Cert.ReferenceIdeal.Gen.V m' c Cert.ReferenceIdeal.main_v1)
    = PointwiseConv.mix (Cert.KernelIdeal.Gen.V m c Cert.KernelIdeal.main_arg0)
      (Cert.KernelIdeal.Gen.V m c Cert.KernelIdeal.main_v0) (Cert.KernelIdeal.Gen.V m c Cert.KernelIdeal.main_v1)
  rw [Cert.ReferenceIdeal.Gen.V_main_arg0, Cert.ReferenceIdeal.Tiles.V_weights, Cert.ReferenceIdeal.Tiles.V_bias,
    Cert.KernelIdeal.Gen.V_main_arg0, Cert.KernelIdeal.RowValue.V_weights, Cert.KernelIdeal.RowValue.V_bias,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_rows, frame_rows_ideal, frame_tiles, preserves, algebraic⟩

end Cert.Proof

end
